-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x8192 .f32) (main_arg1 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x8192 : Shape := ⟨2, ![8192, 8192]⟩
abbrev S8192x64 : Shape := ⟨2, ![8192, 64]⟩
abbrev S128x8192 : Shape := ⟨2, ![128, 8192]⟩
abbrev S128x64 : Shape := ⟨2, ![128, 64]⟩

abbrev nBuf : Space → Nat
  | .hbm => 3
  | .vmem => 11
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S8192x64, .f32⟩
  | .local _ .vmem, ⟨9, _⟩ => ⟨S128x64, .f32⟩
  | .local _ .vmem, ⟨10, _⟩ => ⟨S128x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg0 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let v13 : BitVec 32 := Scalar.extui v12
  let c0_i32_5 : BitVec 32 := 0#32
  let v14 : BitVec 1 := Scalar.cmpi .ne v13 c0_i32_5
  v14

def k0_cond2 (i : grid0.Coords) : BitVec 1 :=
  let arg0 : BitVec 32 := BitVec.ofNat 32 (i 0).val
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi arg0 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_12 : BitVec 32 := 1#32
  let v25 : BitVec 1 := Scalar.cmpi .eq v24 c1_i32_12
  let v26 : BitVec 32 := Scalar.extui v25
  let c0_i32_13 : BitVec 32 := 0#32
  let v27 : BitVec 1 := Scalar.cmpi .ne v26 c0_i32_13
  v27

def k0_cond3 (i : grid0.Coords) : BitVec 1 :=
  let arg0 : BitVec 32 := BitVec.ofNat 32 (i 0).val
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi arg0 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c2_i32 : BitVec 32 := 2#32
  let v38 : BitVec 1 := Scalar.cmpi .eq v37 c2_i32
  let v39 : BitVec 32 := Scalar.extui v38
  let c0_i32_20 : BitVec 32 := 0#32
  let v40 : BitVec 1 := Scalar.cmpi .ne v39 c0_i32_20
  v40

def k0_cond4 (i : grid0.Coords) : BitVec 1 :=
  let arg0 : BitVec 32 := BitVec.ofNat 32 (i 0).val
  let c4_i32_21 : BitVec 32 := 4#32
  let c0_i32_22 : BitVec 32 := 0#32
  let v41 : BitVec 1 := Scalar.cmpi .eq c4_i32_21 c0_i32_22
  let c1_i32_23 : BitVec 32 := 1#32
  let v42 : BitVec 32 := Scalar.select v41 c1_i32_23 c4_i32_21
  let v43 : BitVec 32 := Scalar.remsi arg0 v42
  let c0_i32_25 : BitVec 32 := 0#32
  let v45 : BitVec 1 := Scalar.cmpi .slt v43 c0_i32_25
  let c0_i32_26 : BitVec 32 := 0#32
  let v46 : BitVec 1 := Scalar.cmpi .slt v42 c0_i32_26
  let v47 : BitVec 1 := Scalar.xori v45 v46
  let c0_i32_24 : BitVec 32 := 0#32
  let v44 : BitVec 1 := Scalar.cmpi .ne v43 c0_i32_24
  let v48 : BitVec 1 := Scalar.andi v47 v44
  let v49 : BitVec 32 := Scalar.addi v43 v42
  let v50 : BitVec 32 := Scalar.select v48 v49 v43
  let c3_i32 : BitVec 32 := 3#32
  let v51 : BitVec 1 := Scalar.cmpi .eq v50 c3_i32
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let v1 : BitVec 32 := Scalar.subi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c15_i32 : BitVec 32 := 15#32
  let v19 : BitVec 32 := Scalar.minsi v18 c15_i32
  let c4_i32_5 : BitVec 32 := 4#32
  let v20 : BitVec 32 := Scalar.muli c4_i32_5 v19
  let c0_i32_6 : BitVec 32 := 0#32
  let v21 : BitVec 32 := Scalar.addi c0_i32_6 v20
  let c0_i32_7 : BitVec 32 := 0#32
  let c0_i32_8 : BitVec 32 := 0#32
  ![v21.toNat, c0_i32_7.toNat]

def cc0_transform_1 (i : grid0.Coords) : Fin 2 → Nat :=
  let arg0 : BitVec 32 := BitVec.ofNat 32 (i 0).val
  let c3_i32 : BitVec 32 := 3#32
  let v0 : BitVec 32 := Scalar.addi arg0 c3_i32
  let c1_i32 : BitVec 32 := 1#32
  let v1 : BitVec 32 := Scalar.subi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c15_i32 : BitVec 32 := 15#32
  let v19 : BitVec 32 := Scalar.minsi v18 c15_i32
  let c4_i32_5 : BitVec 32 := 4#32
  let v20 : BitVec 32 := Scalar.muli c4_i32_5 v19
  let c1_i32_6 : BitVec 32 := 1#32
  let v21 : BitVec 32 := Scalar.addi c1_i32_6 v20
  let c0_i32_7 : BitVec 32 := 0#32
  let c0_i32_8 : BitVec 32 := 0#32
  ![v21.toNat, c0_i32_7.toNat]

def cc0_transform_2 (i : grid0.Coords) : Fin 2 → Nat :=
  let arg0 : BitVec 32 := BitVec.ofNat 32 (i 0).val
  let c3_i32 : BitVec 32 := 3#32
  let v0 : BitVec 32 := Scalar.addi arg0 c3_i32
  let c2_i32 : BitVec 32 := 2#32
  let v1 : BitVec 32 := Scalar.subi v0 c2_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c15_i32 : BitVec 32 := 15#32
  let v19 : BitVec 32 := Scalar.minsi v18 c15_i32
  let c4_i32_4 : BitVec 32 := 4#32
  let v20 : BitVec 32 := Scalar.muli c4_i32_4 v19
  let c2_i32_5 : BitVec 32 := 2#32
  let v21 : BitVec 32 := Scalar.addi c2_i32_5 v20
  let c0_i32_6 : BitVec 32 := 0#32
  let c0_i32_7 : BitVec 32 := 0#32
  ![v21.toNat, c0_i32_6.toNat]

def cc0_transform_3 (i : grid0.Coords) : Fin 2 → Nat :=
  let arg0 : BitVec 32 := BitVec.ofNat 32 (i 0).val
  let c3_i32 : BitVec 32 := 3#32
  let v0 : BitVec 32 := Scalar.addi arg0 c3_i32
  let c3_i32_0 : BitVec 32 := 3#32
  let v1 : BitVec 32 := Scalar.subi v0 c3_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c15_i32 : BitVec 32 := 15#32
  let v19 : BitVec 32 := Scalar.minsi v18 c15_i32
  let c4_i32_5 : BitVec 32 := 4#32
  let v20 : BitVec 32 := Scalar.muli c4_i32_5 v19
  let c3_i32_6 : BitVec 32 := 3#32
  let v21 : BitVec 32 := Scalar.addi c3_i32_6 v20
  let c0_i32_7 : BitVec 32 := 0#32
  let c0_i32_8 : BitVec 32 := 0#32
  ![v21.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  inb_S128x64_S128x64_0_0 : ∀ a, (![0, 0] : Fin 2 → Nat) a + S128x64.size a ≤ S128x64.size a
  h_S128x64 : 0 < S128x64.numel
  dot_S128x8192_S8192x64_S128x64_1_0_0_1_n_n_wf : DotDims.WF S128x8192 S8192x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S8192x64.size a
  hwx0_4 : ∀ i : grid0.Coords, EltTy.bits .f32 = 32 ∨ (Rect.block (s := S8192x64) S8192x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S8192x64.size a
  hwx0_5 : ∀ i : grid0.Coords, EltTy.bits .f32 = 32 ∨ (Rect.block (s := S8192x64) S128x64.size (cc0_transform_5 i) (hinb0_5 i)).WholeWords (EltTy.packing .f32)

variable [Facts₀]

def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S8192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) && !(k0_cond4 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x8192_S8192x64_S8192x64_1_0_0_1_n_n_wf : DotDims.WF S8192x8192 S8192x64 S8192x64 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KStreamBase.lean ====
/-
  The streaming product phi = A · E over a grid of 64 row blocks, the shared vocabulary of its run.

  A (8192 x 8192) is handed to the kernel through FOUR input windows of 128 x 8192 rows each; window j's block
  index at grid point i is j + 4 · min((i + 3 - j) / 4, 15). At a point i = 4q + j the quotient is q <= 15, so
  window j then sits on row block i itself, and the body, which at a point i with i mod 4 = j multiplies window
  j's block by E, writes rows [128 i, 128 i + 128) of A · E into the output's block i. The other three windows
  are then ahead of or behind the point and are not read.

  Here: the arrays as the region finds them; a window's block at a point; each input window's staging buffer
  holds its block at every point, fetched there or not; the four branch conditions in closed form
  (i mod 4 = 0, 1, 2, 3), decided over the 64 points; that exactly one holds, so the output is stored at every
  point; the staging memrefs as the pipeline passes them.
-/
import proofs.«159240_g24532853195392_cont_8to1_888_26_alg».proof.Proof.Gen.Kernel.Launch
import proofs.«159240_g24532853195392_cont_8to1_888_26_alg».proof.Proof.Gen.Kernel.Skeleton
import proofs.«159240_g24532853195392_cont_8to1_888_26_alg».proof.Proof.Gen.Kernel.Points
import Idealize.ShloMosaic.Lib.Pipeline.FrameBody
import Idealize.ShloMosaic.Lib.Ring
import Idealize.ShloMosaic.Lib.Tactic

-- membership in a rectangle of 128 x 8192 and 8192 x 64 entries: the structural look recurses once per coordinate
set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched (the program is the region alone). -/
abbrev V (c : Dev nD) (b : Ref sig .tc) : Buf (Elt F) ((c : Thread nD τ).loc b) := m ((c : Thread nD τ).loc b)

/-- The program up to the region is the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it: for `w < 4` the 128 rows of A
    at the window's block index there, for `w = 4` all of E. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether the pipeline fetched it
    there or not (unfetched, the block index has not moved since the last fetch), for any proof data over the
    entry arrays whose body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's four branches -/

/-- Branch j is taken exactly at the points i with i mod 4 = j: each condition compares the floored remainder
    of the point by 4 with j. Decided over the grid's 64 points. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 1 :=
  (by decide +kernel : ∀ t : Fin grid0.N, k0_cond2 (grid0.coords t) = 1#1 ↔ t.val % 4 = 1)
theorem hcond3 : ∀ t : Fin cfg0.N, k0_cond3 (grid0.coords t) = 1#1 ↔ t.val % 4 = 2 :=
  (by decide +kernel : ∀ t : Fin grid0.N, k0_cond3 (grid0.coords t) = 1#1 ↔ t.val % 4 = 2)
theorem hcond4 : ∀ t : Fin cfg0.N, k0_cond4 (grid0.coords t) = 1#1 ↔ t.val % 4 = 3 :=
  (by decide +kernel : ∀ t : Fin grid0.N, k0_cond4 (grid0.coords t) = 1#1 ↔ t.val % 4 = 3)

/-! ## Where the windows are live -/

/-- The inputs are live at every point, -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- and so is the output: every point's remainder by 4 is one of 0, 1, 2, 3, so one branch stores into it. -/
theorem live_5 : ∀ t : Fin cfg0.N, cfg0.idle 5 (grid0.coords t) = false := by decide +kernel

/-! ## The staging memrefs at a point -/

/-- One staging buffer of the output window, through which its contents are stated (the choice does not matter). -/
abbrev VO : View sig .tc .vmem S128x64 .f32 := (Memref.whole cc0_stg5_0 : Memref sig .tc .vmem S128x64 .f32).view
/-- Each window's current staging memref at point `t`, as the pipeline passes it to the body, and its wholeness. -/
abbrev ms_0 (t : Fin cfg0.N) : Memref sig .tc .vmem S128x8192 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x8192 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x8192 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x8192 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8192x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x64 .f32 := win0_5.stage (cfg0.slots t 5)
abbrev hs_5 (t : Fin cfg0.N) : (ms_5 t).IsWhole := hstage0_5 ((cfg0.slots t 5).cast nbuf0_5)

/-- The zero offsets of a whole-buffer load or store, however spelt. -/
theorem hz2 : (![0, 0] : Fin 2 → ℕ) = fun _ => 0 := by
  funext a; fin_cases a <;> rfl

end Cert.Kernel.Stream

end
-- ==== Proof.KStreamRun0.lean ====
/-
  The body of the streaming product at a grid point i with i mod 4 = 0: of the four conditionals only the one
  for remainder 0 is taken. It loads all of E and narrows it to bf16, loads the 128 x 8192 block that input
  window 0 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KStreamBase

-- membership in a rectangle of 128 x 8192 and 8192 x 64 entries: the structural look recurses once per coordinate
set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 0, with the
    proof that from window 0's buffer at `xa`, E's buffer at `xe` and the output's buffer at anything the body
    runs to the continuation, which receives the two inputs as they were and the output's buffer with the pieces
    written. -/
noncomputable def kernelRun_0 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : k0_cond1 i = 1#1) (h2 : ¬k0_cond2 i = 1#1) (h3 : ¬k0_cond3 i = 1#1) (h4 : ¬k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg1 fullShare xa ∗ owns (c : Thread nD τ) arg5 fullShare xe ∗ (∃ d, owns (c : Thread nD τ) arg6 fullShare d)
            ∗ (iprop(owns (c : Thread nD τ) arg1 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg1.eq_unread hfa
    obtain rfl := harg5.eq_unread hfe
    sl_exec (disch := first | exact h1 | exact h2 | exact h3 | exact h4)
    sl_step
    iapply Hk
    isplitl [Ha]
    · iexists _; isplitr; · ipureintro; exact harg1.read_unread _
      iexact Ha
    isplitl [He]
    · iexists _; isplitr; · ipureintro; exact harg5.read_unread _
      iexact He
    iexists _; iexact Hd

end Cert.Kernel.Stream

end
-- ==== Proof.KStreamRun1.lean ====
/-
  The body of the streaming product at a grid point i with i mod 4 = 1: of the four conditionals only the one
  for remainder 1 is taken. It loads all of E and narrows it to bf16, loads the 128 x 8192 block that input
  window 1 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KStreamRun0

-- membership in a rectangle of 128 x 8192 and 8192 x 64 entries: the structural look recurses once per coordinate
set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 1, with the
    proof that from window 1's buffer at `xa`, E's buffer at `xe` and the output's buffer at anything the body
    runs to the continuation, which receives the two inputs as they were and the output's buffer with the pieces
    written. -/
noncomputable def kernelRun_1 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : k0_cond2 i = 1#1) (h3 : ¬k0_cond3 i = 1#1) (h4 : ¬k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg2 fullShare xa ∗ owns (c : Thread nD τ) arg5 fullShare xe ∗ (∃ d, owns (c : Thread nD τ) arg6 fullShare d)
            ∗ (iprop(owns (c : Thread nD τ) arg2 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg2.eq_unread hfa
    obtain rfl := harg5.eq_unread hfe
    sl_exec (disch := first | exact h1 | exact h2 | exact h3 | exact h4)
    sl_step
    iapply Hk
    isplitl [Ha]
    · iexists _; isplitr; · ipureintro; exact harg2.read_unread _
      iexact Ha
    isplitl [He]
    · iexists _; isplitr; · ipureintro; exact harg5.read_unread _
      iexact He
    iexists _; iexact Hd

end Cert.Kernel.Stream

end
-- ==== Proof.KStreamRun2.lean ====
/-
  The body of the streaming product at a grid point i with i mod 4 = 2: of the four conditionals only the one
  for remainder 2 is taken. It loads all of E and narrows it to bf16, loads the 128 x 8192 block that input
  window 2 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KStreamRun1

-- membership in a rectangle of 128 x 8192 and 8192 x 64 entries: the structural look recurses once per coordinate
set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 2, with the
    proof that from window 2's buffer at `xa`, E's buffer at `xe` and the output's buffer at anything the body
    runs to the continuation, which receives the two inputs as they were and the output's buffer with the pieces
    written. -/
noncomputable def kernelRun_2 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : k0_cond3 i = 1#1) (h4 : ¬k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg3 fullShare xa ∗ owns (c : Thread nD τ) arg5 fullShare xe ∗ (∃ d, owns (c : Thread nD τ) arg6 fullShare d)
            ∗ (iprop(owns (c : Thread nD τ) arg3 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg3.eq_unread hfa
    obtain rfl := harg5.eq_unread hfe
    sl_exec (disch := first | exact h1 | exact h2 | exact h3 | exact h4)
    sl_step
    iapply Hk
    isplitl [Ha]
    · iexists _; isplitr; · ipureintro; exact harg3.read_unread _
      iexact Ha
    isplitl [He]
    · iexists _; isplitr; · ipureintro; exact harg5.read_unread _
      iexact He
    iexists _; iexact Hd

end Cert.Kernel.Stream

end
-- ==== Proof.KStreamRun3.lean ====
/-
  The body of the streaming product at a grid point i with i mod 4 = 3: of the four conditionals only the one
  for remainder 3 is taken. It loads all of E and narrows it to bf16, loads the 128 x 8192 block that input
  window 3 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KStreamRun2

-- membership in a rectangle of 128 x 8192 and 8192 x 64 entries: the structural look recurses once per coordinate
set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 3, with the
    proof that from window 3's buffer at `xa`, E's buffer at `xe` and the output's buffer at anything the body
    runs to the continuation, which receives the two inputs as they were and the output's buffer with the pieces
    written. -/
noncomputable def kernelRun_3 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : ¬k0_cond3 i = 1#1) (h4 : k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg4 fullShare xa ∗ owns (c : Thread nD τ) arg5 fullShare xe ∗ (∃ d, owns (c : Thread nD τ) arg6 fullShare d)
            ∗ (iprop(owns (c : Thread nD τ) arg4 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg4.eq_unread hfa
    obtain rfl := harg5.eq_unread hfe
    sl_exec (disch := first | exact h1 | exact h2 | exact h3 | exact h4)
    sl_step
    iapply Hk
    isplitl [Ha]
    · iexists _; isplitr; · ipureintro; exact harg4.read_unread _
      iexact Ha
    isplitl [He]
    · iexists _; isplitr; · ipureintro; exact harg5.read_unread _
      iexact He
    iexists _; iexact Hd

end Cert.Kernel.Stream

end
-- ==== Proof.KStreamFrame.lean ====
/-
  The frame of the streaming product phi = A · E: the program runs to its end from any memory, faults nowhere,
  and leaves A and E as it found them; and what the result array holds afterwards, block by block.

  After the body at grid point t the output's staging buffer holds the product of E (narrowed to bf16) with
  the 128 x 8192 block of the input window whose number is t mod 4; each input window's buffer holds that
  window's block. The pipeline writes the output block back at every point, so the result array after the run
  is the entry array with block t overwritten by that product, for every t.

  A is read through four windows at once, so the one array is held by four readers: its full share is cut in
  two and each half in two again, one quarter per window; E and the result are each held whole by their one
  window. The launch is the library's for a kernel without semaphores of its own whose input windows may share
  an array.
-/
import proofs.«159240_g24532853195392_cont_8to1_888_26_alg».proof.Proof.KStreamRun3
import Idealize.ShloMosaic.Lib.Pipeline.Launch
import Idealize.ShloMosaic.Lib.Pipeline.Value

-- membership in a rectangle of 128 x 8192 and 8192 x 64 entries: the structural look recurses once per coordinate
set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the store leaves -/

/-- The product of a 128 x 8192 block `xa` with E's contents `xe` narrowed to bf16, accumulated from zero. -/
def prodBlock (xe : Vec F S8192x64 .f32) (xa : Vec F S128x8192 .f32) : Vec F S128x64 .f32 := k0_pay4 xe xa

/-- At a point of remainder 0 the one store covers the output block. -/
theorem cover_0 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : k0_cond1 i = 1#1) (h2 : ¬k0_cond2 i = 1#1) (h3 : ¬k0_cond3 i = 1#1) (h4 : ¬k0_cond4 i = 1#1)
    (xa : Vec F S128x8192 .f32) (xe : Vec F S8192x64 .f32) (y : S128x64.Idx) :
    ∃ pc ∈ (kernelRun_0 c i arg1 harg1 arg2 harg2 arg3 harg3 arg4 harg4 arg5 harg5 arg6 harg6 h1 h2 h3 h4 xa xe).1, y ∈ pc.1.set :=
  View.cover_of_tiledL (kernelRun_0 c i arg1 harg1 arg2 harg2 arg3 harg3 arg4 harg4 arg5 harg5 arg6 harg6 h1 h2 h3 h4 xa xe).1 S128x64.size (by sl_kernel_rfl) y

/-- and what it leaves, read back, is the product of the block with E. -/
theorem left_0 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : k0_cond1 i = 1#1) (h2 : ¬k0_cond2 i = 1#1) (h3 : ¬k0_cond3 i = 1#1) (h4 : ¬k0_cond4 i = 1#1)
    (xa : Vec F S128x8192 .f32) (xe : Vec F S8192x64 .f32) :
    VO.read (Elt F) (VO.writes (Elt F) VO.junk (kernelRun_0 c i arg1 harg1 arg2 harg2 arg3 harg3 arg4 harg4 arg5 harg5 arg6 harg6 h1 h2 h3 h4 xa xe).1) = prodBlock xe xa := by
  rw [View.read_writes_eq_canon _ _ _ (cover_0 c i arg1 harg1 arg2 harg2 arg3 harg3 arg4 harg4 arg5 harg5 arg6 harg6 h1 h2 h3 h4 xa xe)]
  unfold kernelRun_0; dsimp only; sl_unfold_words
  rw [View.canon_unit_zero (S := S128x64) hz2]
  simp only [View.readAt_eq_ld, harg1.read_unread, harg5.read_unread, View.ld_unit_zero (S := S128x8192) hz2, View.ld_unit_zero (S := S8192x64) hz2]
  rfl

/-- At a point of remainder 1 the one store covers the output block. -/
theorem cover_1 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : k0_cond2 i = 1#1) (h3 : ¬k0_cond3 i = 1#1) (h4 : ¬k0_cond4 i = 1#1)
    (xa : Vec F S128x8192 .f32) (xe : Vec F S8192x64 .f32) (y : S128x64.Idx) :
    ∃ pc ∈ (kernelRun_1 c i arg1 harg1 arg2 harg2 arg3 harg3 arg4 harg4 arg5 harg5 arg6 harg6 h1 h2 h3 h4 xa xe).1, y ∈ pc.1.set :=
  View.cover_of_tiledL (kernelRun_1 c i arg1 harg1 arg2 harg2 arg3 harg3 arg4 harg4 arg5 harg5 arg6 harg6 h1 h2 h3 h4 xa xe).1 S128x64.size (by sl_kernel_rfl) y

/-- and what it leaves, read back, is the product of the block with E. -/
theorem left_1 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : k0_cond2 i = 1#1) (h3 : ¬k0_cond3 i = 1#1) (h4 : ¬k0_cond4 i = 1#1)
    (xa : Vec F S128x8192 .f32) (xe : Vec F S8192x64 .f32) :
    VO.read (Elt F) (VO.writes (Elt F) VO.junk (kernelRun_1 c i arg1 harg1 arg2 harg2 arg3 harg3 arg4 harg4 arg5 harg5 arg6 harg6 h1 h2 h3 h4 xa xe).1) = prodBlock xe xa := by
  rw [View.read_writes_eq_canon _ _ _ (cover_1 c i arg1 harg1 arg2 harg2 arg3 harg3 arg4 harg4 arg5 harg5 arg6 harg6 h1 h2 h3 h4 xa xe)]
  unfold kernelRun_1; dsimp only; sl_unfold_words
  rw [View.canon_unit_zero (S := S128x64) hz2]
  simp only [View.readAt_eq_ld, harg2.read_unread, harg5.read_unread, View.ld_unit_zero (S := S128x8192) hz2, View.ld_unit_zero (S := S8192x64) hz2]
  rfl

/-- At a point of remainder 2 the one store covers the output block. -/
theorem cover_2 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : k0_cond3 i = 1#1) (h4 : ¬k0_cond4 i = 1#1)
    (xa : Vec F S128x8192 .f32) (xe : Vec F S8192x64 .f32) (y : S128x64.Idx) :
    ∃ pc ∈ (kernelRun_2 c i arg1 harg1 arg2 harg2 arg3 harg3 arg4 harg4 arg5 harg5 arg6 harg6 h1 h2 h3 h4 xa xe).1, y ∈ pc.1.set :=
  View.cover_of_tiledL (kernelRun_2 c i arg1 harg1 arg2 harg2 arg3 harg3 arg4 harg4 arg5 harg5 arg6 harg6 h1 h2 h3 h4 xa xe).1 S128x64.size (by sl_kernel_rfl) y

/-- and what it leaves, read back, is the product of the block with E. -/
theorem left_2 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : k0_cond3 i = 1#1) (h4 : ¬k0_cond4 i = 1#1)
    (xa : Vec F S128x8192 .f32) (xe : Vec F S8192x64 .f32) :
    VO.read (Elt F) (VO.writes (Elt F) VO.junk (kernelRun_2 c i arg1 harg1 arg2 harg2 arg3 harg3 arg4 harg4 arg5 harg5 arg6 harg6 h1 h2 h3 h4 xa xe).1) = prodBlock xe xa := by
  rw [View.read_writes_eq_canon _ _ _ (cover_2 c i arg1 harg1 arg2 harg2 arg3 harg3 arg4 harg4 arg5 harg5 arg6 harg6 h1 h2 h3 h4 xa xe)]
  unfold kernelRun_2; dsimp only; sl_unfold_words
  rw [View.canon_unit_zero (S := S128x64) hz2]
  simp only [View.readAt_eq_ld, harg3.read_unread, harg5.read_unread, View.ld_unit_zero (S := S128x8192) hz2, View.ld_unit_zero (S := S8192x64) hz2]
  rfl

/-- At a point of remainder 3 the one store covers the output block. -/
theorem cover_3 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : ¬k0_cond3 i = 1#1) (h4 : k0_cond4 i = 1#1)
    (xa : Vec F S128x8192 .f32) (xe : Vec F S8192x64 .f32) (y : S128x64.Idx) :
    ∃ pc ∈ (kernelRun_3 c i arg1 harg1 arg2 harg2 arg3 harg3 arg4 harg4 arg5 harg5 arg6 harg6 h1 h2 h3 h4 xa xe).1, y ∈ pc.1.set :=
  View.cover_of_tiledL (kernelRun_3 c i arg1 harg1 arg2 harg2 arg3 harg3 arg4 harg4 arg5 harg5 arg6 harg6 h1 h2 h3 h4 xa xe).1 S128x64.size (by sl_kernel_rfl) y

/-- and what it leaves, read back, is the product of the block with E. -/
theorem left_3 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : ¬k0_cond3 i = 1#1) (h4 : k0_cond4 i = 1#1)
    (xa : Vec F S128x8192 .f32) (xe : Vec F S8192x64 .f32) :
    VO.read (Elt F) (VO.writes (Elt F) VO.junk (kernelRun_3 c i arg1 harg1 arg2 harg2 arg3 harg3 arg4 harg4 arg5 harg5 arg6 harg6 h1 h2 h3 h4 xa xe).1) = prodBlock xe xa := by
  rw [View.read_writes_eq_canon _ _ _ (cover_3 c i arg1 harg1 arg2 harg2 arg3 harg3 arg4 harg4 arg5 harg5 arg6 harg6 h1 h2 h3 h4 xa xe)]
  unfold kernelRun_3; dsimp only; sl_unfold_words
  rw [View.canon_unit_zero (S := S128x64) hz2]
  simp only [View.readAt_eq_ld, harg4.read_unread, harg5.read_unread, View.ld_unit_zero (S := S128x8192) hz2, View.ld_unit_zero (S := S8192x64) hz2]
  rfl

/-! ## What the output's buffer holds after each point -/

/-- After the body at point `t`: the product of E with the block of the window numbered `t mod 4`. -/
def outAt (c : Dev nD) (t : Fin cfg0.N) : Vec F S128x64 .f32 :=
  if t.val % 4 = 0 then prodBlock (iblk m c 4 t) (iblk m c 0 t)
  else if t.val % 4 = 1 then prodBlock (iblk m c 4 t) (iblk m c 1 t)
  else if t.val % 4 = 2 then prodBlock (iblk m c 4 t) (iblk m c 2 t)
  else prodBlock (iblk m c 4 t) (iblk m c 3 t)

theorem outAt_0 (c : Dev nD) (t : Fin cfg0.N) (h : t.val % 4 = 0) : outAt m c t = prodBlock (iblk m c 4 t) (iblk m c 0 t) := by
  unfold outAt; rw [if_pos h]
theorem outAt_1 (c : Dev nD) (t : Fin cfg0.N) (h : t.val % 4 = 1) : outAt m c t = prodBlock (iblk m c 4 t) (iblk m c 1 t) := by
  unfold outAt; rw [if_neg (by omega), if_pos h]
theorem outAt_2 (c : Dev nD) (t : Fin cfg0.N) (h : t.val % 4 = 2) : outAt m c t = prodBlock (iblk m c 4 t) (iblk m c 2 t) := by
  unfold outAt; rw [if_neg (by omega), if_neg (by omega), if_pos h]
theorem outAt_3 (c : Dev nD) (t : Fin cfg0.N) (h : t.val % 4 = 3) : outAt m c t = prodBlock (iblk m c 4 t) (iblk m c 3 t) := by
  unfold outAt; rw [if_neg (by omega), if_neg (by omega), if_neg (by omega)]

/-! ## The pipeline's proof data -/

/-- The proof data on core `c`: the arrays as the region finds them; after the body at point `t` each input's
    buffer at its block and the output's at `outAt`; between points only the scoped buffers that are no staging
    buffer (there are none); A's full share dealt in quarters to its four windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨_ + 6, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨_ + 6, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each input's current staging buffer holds its block at every point, fetched there or not. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks; the point's remainder by 4 says which branch
    runs; that branch's run applies, on the buffer of the window it reads, E's and the output's; the other
    three windows' buffers pass through untouched; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms_0 t) fullShare ((dats m 0 c).after 0 t) from by
      unfold Dat.leavesExact; rw [live_0 t], after_0,
    show (dats m 0 c).leavesExact 1 t = owns (c : Thread nD τ) (ms_1 t) fullShare ((dats m 0 c).after 1 t) from by
      unfold Dat.leavesExact; rw [live_1 t], after_1,
    show (dats m 0 c).leavesExact 2 t = owns (c : Thread nD τ) (ms_2 t) fullShare ((dats m 0 c).after 2 t) from by
      unfold Dat.leavesExact; rw [live_2 t], after_2,
    show (dats m 0 c).leavesExact 3 t = owns (c : Thread nD τ) (ms_3 t) fullShare ((dats m 0 c).after 3 t) from by
      unfold Dat.leavesExact; rw [live_3 t], after_3,
    show (dats m 0 c).leavesExact 4 t = owns (c : Thread nD τ) (ms_4 t) fullShare ((dats m 0 c).after 4 t) from by
      unfold Dat.leavesExact; rw [live_4 t], after_4,
    show (dats m 0 c).leavesExact 5 t = owns (c : Thread nD τ) (ms_5 t) fullShare ((dats m 0 c).after 5 t) from by
      unfold Dat.leavesExact; rw [live_5 t], after_5]
  have hN : t.val < 64 := lt_of_lt_of_eq t.isLt (show cfg0.N = 64 from N_0)
  rcases (show t.val % 4 = 0 ∨ t.val % 4 = 1 ∨ t.val % 4 = 2 ∨ t.val % 4 = 3 by omega) with hr | hr | hr | hr
  ·
    rw [outAt_0 m c t hr]
    iintro ⟨HΦ, Ho, ⟨%d0, H0⟩, ⟨%d1, H1⟩, ⟨%d2, H2⟩, ⟨%d3, H3⟩, ⟨%d4, H4⟩, ⟨%d5, H5⟩⟩
    iapply ((kernelRun_0 c (grid0.coords t) _ _ _ _ _ _ _ _ _ _ _ _ ((hcond1 t).mpr hr) (fun h => by have := (hcond2 t).mp h; omega) (fun h => by have := (hcond3 t).mp h; omega) (fun h => by have := (hcond4 t).mp h; omega) (iblk m c 0 t) (iblk m c 4 t)).2 Set.univ _)
    isplitl [H0]; · iexact H0
    isplitl [H4]; · iexact H4
    isplitl [H5]; · iexists _; iexact H5
    iintro ⟨H0, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_0 c _ _ _ _ _ _ _ _ _ _ _ _ _ _ _ _ _ _ _)).trans (left_0 c _ _ _ _ _ _ _ _ _ _ _ _ _ _ _ _ _ _ _)
  ·
    rw [outAt_1 m c t hr]
    iintro ⟨HΦ, Ho, ⟨%d0, H0⟩, ⟨%d1, H1⟩, ⟨%d2, H2⟩, ⟨%d3, H3⟩, ⟨%d4, H4⟩, ⟨%d5, H5⟩⟩
    iapply ((kernelRun_1 c (grid0.coords t) _ _ _ _ _ _ _ _ _ _ _ _ (fun h => by have := (hcond1 t).mp h; omega) ((hcond2 t).mpr hr) (fun h => by have := (hcond3 t).mp h; omega) (fun h => by have := (hcond4 t).mp h; omega) (iblk m c 1 t) (iblk m c 4 t)).2 Set.univ _)
    isplitl [H1]; · iexact H1
    isplitl [H4]; · iexact H4
    isplitl [H5]; · iexists _; iexact H5
    iintro ⟨H1, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_1 c _ _ _ _ _ _ _ _ _ _ _ _ _ _ _ _ _ _ _)).trans (left_1 c _ _ _ _ _ _ _ _ _ _ _ _ _ _ _ _ _ _ _)
  ·
    rw [outAt_2 m c t hr]
    iintro ⟨HΦ, Ho, ⟨%d0, H0⟩, ⟨%d1, H1⟩, ⟨%d2, H2⟩, ⟨%d3, H3⟩, ⟨%d4, H4⟩, ⟨%d5, H5⟩⟩
    iapply ((kernelRun_2 c (grid0.coords t) _ _ _ _ _ _ _ _ _ _ _ _ (fun h => by have := (hcond1 t).mp h; omega) (fun h => by have := (hcond2 t).mp h; omega) ((hcond3 t).mpr hr) (fun h => by have := (hcond4 t).mp h; omega) (iblk m c 2 t) (iblk m c 4 t)).2 Set.univ _)
    isplitl [H2]; · iexact H2
    isplitl [H4]; · iexact H4
    isplitl [H5]; · iexists _; iexact H5
    iintro ⟨H2, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_2 c _ _ _ _ _ _ _ _ _ _ _ _ _ _ _ _ _ _ _)).trans (left_2 c _ _ _ _ _ _ _ _ _ _ _ _ _ _ _ _ _ _ _)
  ·
    rw [outAt_3 m c t hr]
    iintro ⟨HΦ, Ho, ⟨%d0, H0⟩, ⟨%d1, H1⟩, ⟨%d2, H2⟩, ⟨%d3, H3⟩, ⟨%d4, H4⟩, ⟨%d5, H5⟩⟩
    iapply ((kernelRun_3 c (grid0.coords t) _ _ _ _ _ _ _ _ _ _ _ _ (fun h => by have := (hcond1 t).mp h; omega) (fun h => by have := (hcond2 t).mp h; omega) (fun h => by have := (hcond3 t).mp h; omega) ((hcond4 t).mpr hr) (iblk m c 3 t) (iblk m c 4 t)).2 Set.univ _)
    isplitl [H3]; · iexact H3
    isplitl [H4]; · iexact H4
    isplitl [H5]; · iexists _; iexact H5
    iintro ⟨H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_3 c _ _ _ _ _ _ _ _ _ _ _ _ _ _ _ _ _ _ _)).trans (left_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The launch element of the pipeline's staging cells. -/
abbrev u₀ : UR sig nD τ := Rounds.initOf (Pipeline.cells cfgs cellOf_inj) (Pipeline.launchToks cfgs cellOf_inj)

/-- The share each window holds of its array: a quarter of A's for each of the four windows on A, all of E's
    and all of the result's. -/
theorem share_0 (c : Dev nD) : (dats m 0 c).share 0 = fullShare.left.left := rfl
theorem share_1 (c : Dev nD) : (dats m 0 c).share 1 = fullShare.left.right := rfl
theorem share_2 (c : Dev nD) : (dats m 0 c).share 2 = fullShare.right.left := rfl
theorem share_3 (c : Dev nD) : (dats m 0 c).share 3 = fullShare.right.right := rfl
theorem share_4 (c : Dev nD) : (dats m 0 c).share 4 = fullShare := rfl
theorem share_5 (c : Dev nD) : (dats m 0 c).share 5 = fullShare := rfl

/-- The three buffers behind the six windows, each held whole at its entry contents, are the proof data's
    arrays at entry: A's full share halved and each half halved again, a quarter to each of its four windows;
    E and the result whole to their one window each. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  have e : (dats m 0 c).arrays (fun w => (dats m 0 c).arrAt w 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by
      rw [show (cfg0.win w).arr.view.set = Finset.univ from (arr_whole0 w).set_eq_univ]; rfl
  rw [e]
  have eB : (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_v0) ↦{fullShare} V m c main_v0)) :=
    bigSep_eq_bigSepL_of_eq [main_arg0, main_arg1, main_v0] (by decide) (by decide) _
  rw [eB, bigSep_W0, share_0, share_1, share_2, share_3, share_4, share_5]
  iintro ⟨HA, HE, HO⟩
  ihave HA' := (pointsTo_share (PosShare.mem_left_op_right fullShare)).1 $$ HA
  icases HA' with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  isplitl [H3]; · iexact H3
  isplitl [HE]; · iexact HE
  iexact HO

/-- Between points the body keeps nothing: what the launch hands the region beside the windows is the
    invariant before the first point, -/
theorem phi_in (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, H⟩; iexact H

/-- and the invariant after the last point gives it back. -/
theorem phi_out (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = Pipeline.scopedRest (Ix := Unit) (Name := ℕ) (U := UR sig nD τ) (Lvl := ℕ) (Val := Elt F) spec0 c from rfl]
  iintro H; isplitr; · iempintro
  iexact H

/-- What the run ends in: every window's array at what the write-backs made of it. -/
def RunPost (r : PUnit × MemSt nD τ sig (Elt F)) : Prop :=
  ∀ (c : Dev nD) (w : Fin cfg0.W), r.2.mem ((cfg0.spec w).arr.view.loc (c.tc : Thread nD τ)) = (dats m 0 c).arrAt w cfg0.N

/-- From any memory with zero counters every weakly fair execution of the program terminates without a fault,
    every window's array ending at what the library computes from the proof data. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀)
    (hu₀ := (show (ownU u₀ : sProp 𝕄) ⊢ BI.own (emb₁ (Rounds.initOf (Pipeline.cells cfgs cellOf_inj) (Pipeline.launchToks cfgs cellOf_inj))) from .rfl))
    (V := V m) (hmain := hmain m Variants.none)
    (hsplit := arrays_of_bufs m)
    (X := fun _ => iprop(emp)) (Y := fun _ => iprop(emp)) (Z := fun _ => iprop(emp))
    (hX := fun c => by rw [unscopedRest0_eq]; iintro -; isplitr <;> iempintro)
    (hin := phi_in m) (hout := phi_out m)
    (QY := fun _ _ => True)
    (hY := fun c s' => by
      iintro ⟨-, -, HSI⟩; imodintro
      isplitr; · ipureintro; trivial
      iexact HSI)
    (hQ := fun _ h c w => (h c).1 w)

/-- THE FRAME: the program runs to its end without a fault and A and E end as they began (each is an input
    window's array, which no write-back touches). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans ((A_eq m c 0).trans (V_main_arg0 m c))),
     (h c 4).trans (((dats m 0 c).arrAt_in 4 rfl _).trans ((A_eq m c 4).trans (V_main_arg1 m c)))⟩) (run_main m ρ)

end Cert.Kernel.Stream

end
-- ==== Proof.KIStreamBase.lean ====
/-
  The streaming product phi = A · E over a grid of 64 row blocks, the shared vocabulary of its run.

  A (8192 x 8192) is handed to the kernel through FOUR input windows of 128 x 8192 rows each; window j's block
  index at grid point i is j + 4 · min((i + 3 - j) / 4, 15). At a point i = 4q + j the quotient is q <= 15, so
  window j then sits on row block i itself, and the body, which at a point i with i mod 4 = j multiplies window
  j's block by E, writes rows [128 i, 128 i + 128) of A · E into the output's block i. The other three windows
  are then ahead of or behind the point and are not read.

  Here: the arrays as the region finds them; a window's block at a point; each input window's staging buffer
  holds its block at every point, fetched there or not; the four branch conditions in closed form
  (i mod 4 = 0, 1, 2, 3), decided over the 64 points; that exactly one holds, so the output is stored at every
  point; the staging memrefs as the pipeline passes them.
-/
import proofs.«159240_g24532853195392_cont_8to1_888_26_alg».proof.Proof.Gen.KernelIdeal.Launch
import proofs.«159240_g24532853195392_cont_8to1_888_26_alg».proof.Proof.Gen.KernelIdeal.Skeleton
import proofs.«159240_g24532853195392_cont_8to1_888_26_alg».proof.Proof.Gen.KernelIdeal.Points
import Idealize.ShloMosaic.Lib.Pipeline.FrameBody
import Idealize.ShloMosaic.Lib.Ring
import Idealize.ShloMosaic.Lib.Tactic

-- membership in a rectangle of 128 x 8192 and 8192 x 64 entries: the structural look recurses once per coordinate
set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched (the program is the region alone). -/
abbrev V (c : Dev nD) (b : Ref sig .tc) : Buf (Elt F) ((c : Thread nD τ).loc b) := m ((c : Thread nD τ).loc b)

/-- The program up to the region is the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it: for `w < 4` the 128 rows of A
    at the window's block index there, for `w = 4` all of E. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether the pipeline fetched it
    there or not (unfetched, the block index has not moved since the last fetch), for any proof data over the
    entry arrays whose body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's four branches -/

/-- Branch j is taken exactly at the points i with i mod 4 = j: each condition compares the floored remainder
    of the point by 4 with j. Decided over the grid's 64 points. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 1 :=
  (by decide +kernel : ∀ t : Fin grid0.N, k0_cond2 (grid0.coords t) = 1#1 ↔ t.val % 4 = 1)
theorem hcond3 : ∀ t : Fin cfg0.N, k0_cond3 (grid0.coords t) = 1#1 ↔ t.val % 4 = 2 :=
  (by decide +kernel : ∀ t : Fin grid0.N, k0_cond3 (grid0.coords t) = 1#1 ↔ t.val % 4 = 2)
theorem hcond4 : ∀ t : Fin cfg0.N, k0_cond4 (grid0.coords t) = 1#1 ↔ t.val % 4 = 3 :=
  (by decide +kernel : ∀ t : Fin grid0.N, k0_cond4 (grid0.coords t) = 1#1 ↔ t.val % 4 = 3)

/-! ## Where the windows are live -/

/-- The inputs are live at every point, -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- and so is the output: every point's remainder by 4 is one of 0, 1, 2, 3, so one branch stores into it. -/
theorem live_5 : ∀ t : Fin cfg0.N, cfg0.idle 5 (grid0.coords t) = false := by decide +kernel

/-! ## The staging memrefs at a point -/

/-- One staging buffer of the output window, through which its contents are stated (the choice does not matter). -/
abbrev VO : View sig .tc .vmem S128x64 .f32 := (Memref.whole cc0_stg5_0 : Memref sig .tc .vmem S128x64 .f32).view
/-- Each window's current staging memref at point `t`, as the pipeline passes it to the body, and its wholeness. -/
abbrev ms_0 (t : Fin cfg0.N) : Memref sig .tc .vmem S128x8192 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x8192 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x8192 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x8192 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8192x64 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x64 .f32 := win0_5.stage (cfg0.slots t 5)
abbrev hs_5 (t : Fin cfg0.N) : (ms_5 t).IsWhole := hstage0_5 ((cfg0.slots t 5).cast nbuf0_5)

/-- The zero offsets of a whole-buffer load or store, however spelt. -/
theorem hz2 : (![0, 0] : Fin 2 → ℕ) = fun _ => 0 := by
  funext a; fin_cases a <;> rfl

end Cert.KernelIdeal.Stream

end
-- ==== Proof.KIStreamRun0.lean ====
/-
  The body of the streaming product at a grid point i with i mod 4 = 0: of the four conditionals only the one
  for remainder 0 is taken. It loads all of E and narrows it to bf16, loads the 128 x 8192 block that input
  window 0 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KIStreamBase

-- membership in a rectangle of 128 x 8192 and 8192 x 64 entries: the structural look recurses once per coordinate
set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 0, with the
    proof that from window 0's buffer at `xa`, E's buffer at `xe` and the output's buffer at anything the body
    runs to the continuation, which receives the two inputs as they were and the output's buffer with the pieces
    written. -/
noncomputable def kernelRun_0 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : k0_cond1 i = 1#1) (h2 : ¬k0_cond2 i = 1#1) (h3 : ¬k0_cond3 i = 1#1) (h4 : ¬k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg1 fullShare xa ∗ owns (c : Thread nD τ) arg5 fullShare xe ∗ (∃ d, owns (c : Thread nD τ) arg6 fullShare d)
            ∗ (iprop(owns (c : Thread nD τ) arg1 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg1.eq_unread hfa
    obtain rfl := harg5.eq_unread hfe
    sl_exec (disch := first | exact h1 | exact h2 | exact h3 | exact h4)
    sl_step
    iapply Hk
    isplitl [Ha]
    · iexists _; isplitr; · ipureintro; exact harg1.read_unread _
      iexact Ha
    isplitl [He]
    · iexists _; isplitr; · ipureintro; exact harg5.read_unread _
      iexact He
    iexists _; iexact Hd

end Cert.KernelIdeal.Stream

end
-- ==== Proof.KIStreamRun1.lean ====
/-
  The body of the streaming product at a grid point i with i mod 4 = 1: of the four conditionals only the one
  for remainder 1 is taken. It loads all of E and narrows it to bf16, loads the 128 x 8192 block that input
  window 1 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KIStreamRun0

-- membership in a rectangle of 128 x 8192 and 8192 x 64 entries: the structural look recurses once per coordinate
set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 1, with the
    proof that from window 1's buffer at `xa`, E's buffer at `xe` and the output's buffer at anything the body
    runs to the continuation, which receives the two inputs as they were and the output's buffer with the pieces
    written. -/
noncomputable def kernelRun_1 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : k0_cond2 i = 1#1) (h3 : ¬k0_cond3 i = 1#1) (h4 : ¬k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg2 fullShare xa ∗ owns (c : Thread nD τ) arg5 fullShare xe ∗ (∃ d, owns (c : Thread nD τ) arg6 fullShare d)
            ∗ (iprop(owns (c : Thread nD τ) arg2 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg2.eq_unread hfa
    obtain rfl := harg5.eq_unread hfe
    sl_exec (disch := first | exact h1 | exact h2 | exact h3 | exact h4)
    sl_step
    iapply Hk
    isplitl [Ha]
    · iexists _; isplitr; · ipureintro; exact harg2.read_unread _
      iexact Ha
    isplitl [He]
    · iexists _; isplitr; · ipureintro; exact harg5.read_unread _
      iexact He
    iexists _; iexact Hd

end Cert.KernelIdeal.Stream

end
-- ==== Proof.KIStreamRun2.lean ====
/-
  The body of the streaming product at a grid point i with i mod 4 = 2: of the four conditionals only the one
  for remainder 2 is taken. It loads all of E and narrows it to bf16, loads the 128 x 8192 block that input
  window 2 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KIStreamRun1

-- membership in a rectangle of 128 x 8192 and 8192 x 64 entries: the structural look recurses once per coordinate
set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 2, with the
    proof that from window 2's buffer at `xa`, E's buffer at `xe` and the output's buffer at anything the body
    runs to the continuation, which receives the two inputs as they were and the output's buffer with the pieces
    written. -/
noncomputable def kernelRun_2 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : k0_cond3 i = 1#1) (h4 : ¬k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg3 fullShare xa ∗ owns (c : Thread nD τ) arg5 fullShare xe ∗ (∃ d, owns (c : Thread nD τ) arg6 fullShare d)
            ∗ (iprop(owns (c : Thread nD τ) arg3 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg3.eq_unread hfa
    obtain rfl := harg5.eq_unread hfe
    sl_exec (disch := first | exact h1 | exact h2 | exact h3 | exact h4)
    sl_step
    iapply Hk
    isplitl [Ha]
    · iexists _; isplitr; · ipureintro; exact harg3.read_unread _
      iexact Ha
    isplitl [He]
    · iexists _; isplitr; · ipureintro; exact harg5.read_unread _
      iexact He
    iexists _; iexact Hd

end Cert.KernelIdeal.Stream

end
-- ==== Proof.KIStreamRun3.lean ====
/-
  The body of the streaming product at a grid point i with i mod 4 = 3: of the four conditionals only the one
  for remainder 3 is taken. It loads all of E and narrows it to bf16, loads the 128 x 8192 block that input
  window 3 holds, multiplies the two into a zero accumulator, and stores the 128 x 64 product over the whole
  output block (after a load of that block whose value is not used). The run below finds what the store leaves
  in the output's staging buffer as a list of written pieces; the two loaded buffers are handed back as found.
-/
import proofs.«159240_g24532853195392_cont_8to1_888_26_alg».proof.Proof.KIStreamRun2

-- membership in a rectangle of 128 x 8192 and 8192 x 64 entries: the structural look recurses once per coordinate
set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's one store leaves in the output's staging memref at a point of remainder 3, with the
    proof that from window 3's buffer at `xa`, E's buffer at `xe` and the output's buffer at anything the body
    runs to the continuation, which receives the two inputs as they were and the output's buffer with the pieces
    written. -/
noncomputable def kernelRun_3 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : ¬k0_cond3 i = 1#1) (h4 : k0_cond4 i = 1#1)
    (xa : Vec F S128x8192 .f32) (xe : Vec F S8192x64 .f32) :
    { L : List (View.Piece (Elt F) S128x64 .f32) //
      ∀ (E : Set ℕ) (K : PUnit → sProp 𝕄),
        iprop(owns (c : Thread nD τ) arg4 fullShare xa ∗ owns (c : Thread nD τ) arg5 fullShare xe ∗ (∃ d, owns (c : Thread nD τ) arg6 fullShare d)
            ∗ (iprop(owns (c : Thread nD τ) arg4 fullShare xa ∗ owns (c : Thread nD τ) arg5 fullShare xe ∗ (∃ f, arg6.view.loc (c : Thread nD τ) ↦[arg6.view.set]{fullShare} arg6.view.writes (Elt F) f L)) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    simp only [k0_part1_eq_skeleton]
    unfold owns
    iintro ⟨⟨%fa, %hfa, Ha⟩, ⟨%fe, %hfe, He⟩, ⟨%d, %fd, -, Hd⟩, Hk⟩
    obtain rfl := harg4.eq_unread hfa
    obtain rfl := harg5.eq_unread hfe
    sl_exec (disch := first | exact h1 | exact h2 | exact h3 | exact h4)
    sl_step
    iapply Hk
    isplitl [Ha]
    · iexists _; isplitr; · ipureintro; exact harg4.read_unread _
      iexact Ha
    isplitl [He]
    · iexists _; isplitr; · ipureintro; exact harg5.read_unread _
      iexact He
    iexists _; iexact Hd

end Cert.KernelIdeal.Stream

end
-- ==== Proof.KIStreamFrame.lean ====
/-
  The frame of the streaming product phi = A · E: the program runs to its end from any memory, faults nowhere,
  and leaves A and E as it found them; and what the result array holds afterwards, block by block.

  After the body at grid point t the output's staging buffer holds the product of E (narrowed to bf16) with
  the 128 x 8192 block of the input window whose number is t mod 4; each input window's buffer holds that
  window's block. The pipeline writes the output block back at every point, so the result array after the run
  is the entry array with block t overwritten by that product, for every t.

  A is read through four windows at once, so the one array is held by four readers: its full share is cut in
  two and each half in two again, one quarter per window; E and the result are each held whole by their one
  window. The launch is the library's for a kernel without semaphores of its own whose input windows may share
  an array.
-/
import proofs.«159240_g24532853195392_cont_8to1_888_26_alg».proof.Proof.KIStreamRun3
import Idealize.ShloMosaic.Lib.Pipeline.Launch
import Idealize.ShloMosaic.Lib.Pipeline.Value

-- membership in a rectangle of 128 x 8192 and 8192 x 64 entries: the structural look recurses once per coordinate
set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the store leaves -/

/-- The product of a 128 x 8192 block `xa` with E's contents `xe` narrowed to bf16, accumulated from zero. -/
def prodBlock (xe : Vec F S8192x64 .f32) (xa : Vec F S128x8192 .f32) : Vec F S128x64 .f32 := k0_pay4 xe xa

/-- At a point of remainder 0 the one store covers the output block. -/
theorem cover_0 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : k0_cond1 i = 1#1) (h2 : ¬k0_cond2 i = 1#1) (h3 : ¬k0_cond3 i = 1#1) (h4 : ¬k0_cond4 i = 1#1)
    (xa : Vec F S128x8192 .f32) (xe : Vec F S8192x64 .f32) (y : S128x64.Idx) :
    ∃ pc ∈ (kernelRun_0 c i arg1 harg1 arg2 harg2 arg3 harg3 arg4 harg4 arg5 harg5 arg6 harg6 h1 h2 h3 h4 xa xe).1, y ∈ pc.1.set :=
  View.cover_of_tiledL (kernelRun_0 c i arg1 harg1 arg2 harg2 arg3 harg3 arg4 harg4 arg5 harg5 arg6 harg6 h1 h2 h3 h4 xa xe).1 S128x64.size (by sl_kernel_rfl) y

/-- and what it leaves, read back, is the product of the block with E. -/
theorem left_0 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : k0_cond1 i = 1#1) (h2 : ¬k0_cond2 i = 1#1) (h3 : ¬k0_cond3 i = 1#1) (h4 : ¬k0_cond4 i = 1#1)
    (xa : Vec F S128x8192 .f32) (xe : Vec F S8192x64 .f32) :
    VO.read (Elt F) (VO.writes (Elt F) VO.junk (kernelRun_0 c i arg1 harg1 arg2 harg2 arg3 harg3 arg4 harg4 arg5 harg5 arg6 harg6 h1 h2 h3 h4 xa xe).1) = prodBlock xe xa := by
  rw [View.read_writes_eq_canon _ _ _ (cover_0 c i arg1 harg1 arg2 harg2 arg3 harg3 arg4 harg4 arg5 harg5 arg6 harg6 h1 h2 h3 h4 xa xe)]
  unfold kernelRun_0; dsimp only; sl_unfold_words
  rw [View.canon_unit_zero (S := S128x64) hz2]
  simp only [View.readAt_eq_ld, harg1.read_unread, harg5.read_unread, View.ld_unit_zero (S := S128x8192) hz2, View.ld_unit_zero (S := S8192x64) hz2]
  rfl

/-- At a point of remainder 1 the one store covers the output block. -/
theorem cover_1 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : k0_cond2 i = 1#1) (h3 : ¬k0_cond3 i = 1#1) (h4 : ¬k0_cond4 i = 1#1)
    (xa : Vec F S128x8192 .f32) (xe : Vec F S8192x64 .f32) (y : S128x64.Idx) :
    ∃ pc ∈ (kernelRun_1 c i arg1 harg1 arg2 harg2 arg3 harg3 arg4 harg4 arg5 harg5 arg6 harg6 h1 h2 h3 h4 xa xe).1, y ∈ pc.1.set :=
  View.cover_of_tiledL (kernelRun_1 c i arg1 harg1 arg2 harg2 arg3 harg3 arg4 harg4 arg5 harg5 arg6 harg6 h1 h2 h3 h4 xa xe).1 S128x64.size (by sl_kernel_rfl) y

/-- and what it leaves, read back, is the product of the block with E. -/
theorem left_1 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : k0_cond2 i = 1#1) (h3 : ¬k0_cond3 i = 1#1) (h4 : ¬k0_cond4 i = 1#1)
    (xa : Vec F S128x8192 .f32) (xe : Vec F S8192x64 .f32) :
    VO.read (Elt F) (VO.writes (Elt F) VO.junk (kernelRun_1 c i arg1 harg1 arg2 harg2 arg3 harg3 arg4 harg4 arg5 harg5 arg6 harg6 h1 h2 h3 h4 xa xe).1) = prodBlock xe xa := by
  rw [View.read_writes_eq_canon _ _ _ (cover_1 c i arg1 harg1 arg2 harg2 arg3 harg3 arg4 harg4 arg5 harg5 arg6 harg6 h1 h2 h3 h4 xa xe)]
  unfold kernelRun_1; dsimp only; sl_unfold_words
  rw [View.canon_unit_zero (S := S128x64) hz2]
  simp only [View.readAt_eq_ld, harg2.read_unread, harg5.read_unread, View.ld_unit_zero (S := S128x8192) hz2, View.ld_unit_zero (S := S8192x64) hz2]
  rfl

/-- At a point of remainder 2 the one store covers the output block. -/
theorem cover_2 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : k0_cond3 i = 1#1) (h4 : ¬k0_cond4 i = 1#1)
    (xa : Vec F S128x8192 .f32) (xe : Vec F S8192x64 .f32) (y : S128x64.Idx) :
    ∃ pc ∈ (kernelRun_2 c i arg1 harg1 arg2 harg2 arg3 harg3 arg4 harg4 arg5 harg5 arg6 harg6 h1 h2 h3 h4 xa xe).1, y ∈ pc.1.set :=
  View.cover_of_tiledL (kernelRun_2 c i arg1 harg1 arg2 harg2 arg3 harg3 arg4 harg4 arg5 harg5 arg6 harg6 h1 h2 h3 h4 xa xe).1 S128x64.size (by sl_kernel_rfl) y

/-- and what it leaves, read back, is the product of the block with E. -/
theorem left_2 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : k0_cond3 i = 1#1) (h4 : ¬k0_cond4 i = 1#1)
    (xa : Vec F S128x8192 .f32) (xe : Vec F S8192x64 .f32) :
    VO.read (Elt F) (VO.writes (Elt F) VO.junk (kernelRun_2 c i arg1 harg1 arg2 harg2 arg3 harg3 arg4 harg4 arg5 harg5 arg6 harg6 h1 h2 h3 h4 xa xe).1) = prodBlock xe xa := by
  rw [View.read_writes_eq_canon _ _ _ (cover_2 c i arg1 harg1 arg2 harg2 arg3 harg3 arg4 harg4 arg5 harg5 arg6 harg6 h1 h2 h3 h4 xa xe)]
  unfold kernelRun_2; dsimp only; sl_unfold_words
  rw [View.canon_unit_zero (S := S128x64) hz2]
  simp only [View.readAt_eq_ld, harg3.read_unread, harg5.read_unread, View.ld_unit_zero (S := S128x8192) hz2, View.ld_unit_zero (S := S8192x64) hz2]
  rfl

/-- At a point of remainder 3 the one store covers the output block. -/
theorem cover_3 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : ¬k0_cond3 i = 1#1) (h4 : k0_cond4 i = 1#1)
    (xa : Vec F S128x8192 .f32) (xe : Vec F S8192x64 .f32) (y : S128x64.Idx) :
    ∃ pc ∈ (kernelRun_3 c i arg1 harg1 arg2 harg2 arg3 harg3 arg4 harg4 arg5 harg5 arg6 harg6 h1 h2 h3 h4 xa xe).1, y ∈ pc.1.set :=
  View.cover_of_tiledL (kernelRun_3 c i arg1 harg1 arg2 harg2 arg3 harg3 arg4 harg4 arg5 harg5 arg6 harg6 h1 h2 h3 h4 xa xe).1 S128x64.size (by sl_kernel_rfl) y

/-- and what it leaves, read back, is the product of the block with E. -/
theorem left_3 (c : Dev nD) (i : grid0.Coords) (arg1 : Memref sig .tc .vmem S128x8192 .f32) (harg1 : arg1.IsWhole) (arg2 : Memref sig .tc .vmem S128x8192 .f32) (harg2 : arg2.IsWhole) (arg3 : Memref sig .tc .vmem S128x8192 .f32) (harg3 : arg3.IsWhole) (arg4 : Memref sig .tc .vmem S128x8192 .f32) (harg4 : arg4.IsWhole) (arg5 : Memref sig .tc .vmem S8192x64 .f32) (harg5 : arg5.IsWhole) (arg6 : Memref sig .tc .vmem S128x64 .f32) (harg6 : arg6.IsWhole) (h1 : ¬k0_cond1 i = 1#1) (h2 : ¬k0_cond2 i = 1#1) (h3 : ¬k0_cond3 i = 1#1) (h4 : k0_cond4 i = 1#1)
    (xa : Vec F S128x8192 .f32) (xe : Vec F S8192x64 .f32) :
    VO.read (Elt F) (VO.writes (Elt F) VO.junk (kernelRun_3 c i arg1 harg1 arg2 harg2 arg3 harg3 arg4 harg4 arg5 harg5 arg6 harg6 h1 h2 h3 h4 xa xe).1) = prodBlock xe xa := by
  rw [View.read_writes_eq_canon _ _ _ (cover_3 c i arg1 harg1 arg2 harg2 arg3 harg3 arg4 harg4 arg5 harg5 arg6 harg6 h1 h2 h3 h4 xa xe)]
  unfold kernelRun_3; dsimp only; sl_unfold_words
  rw [View.canon_unit_zero (S := S128x64) hz2]
  simp only [View.readAt_eq_ld, harg4.read_unread, harg5.read_unread, View.ld_unit_zero (S := S128x8192) hz2, View.ld_unit_zero (S := S8192x64) hz2]
  rfl

/-! ## What the output's buffer holds after each point -/

/-- After the body at point `t`: the product of E with the block of the window numbered `t mod 4`. -/
def outAt (c : Dev nD) (t : Fin cfg0.N) : Vec F S128x64 .f32 :=
  if t.val % 4 = 0 then prodBlock (iblk m c 4 t) (iblk m c 0 t)
  else if t.val % 4 = 1 then prodBlock (iblk m c 4 t) (iblk m c 1 t)
  else if t.val % 4 = 2 then prodBlock (iblk m c 4 t) (iblk m c 2 t)
  else prodBlock (iblk m c 4 t) (iblk m c 3 t)

theorem outAt_0 (c : Dev nD) (t : Fin cfg0.N) (h : t.val % 4 = 0) : outAt m c t = prodBlock (iblk m c 4 t) (iblk m c 0 t) := by
  unfold outAt; rw [if_pos h]
theorem outAt_1 (c : Dev nD) (t : Fin cfg0.N) (h : t.val % 4 = 1) : outAt m c t = prodBlock (iblk m c 4 t) (iblk m c 1 t) := by
  unfold outAt; rw [if_neg (by omega), if_pos h]
theorem outAt_2 (c : Dev nD) (t : Fin cfg0.N) (h : t.val % 4 = 2) : outAt m c t = prodBlock (iblk m c 4 t) (iblk m c 2 t) := by
  unfold outAt; rw [if_neg (by omega), if_neg (by omega), if_pos h]
theorem outAt_3 (c : Dev nD) (t : Fin cfg0.N) (h : t.val % 4 = 3) : outAt m c t = prodBlock (iblk m c 4 t) (iblk m c 3 t) := by
  unfold outAt; rw [if_neg (by omega), if_neg (by omega), if_neg (by omega)]

/-! ## The pipeline's proof data -/

/-- The proof data on core `c`: the arrays as the region finds them; after the body at point `t` each input's
    buffer at its block and the output's at `outAt`; between points only the scoped buffers that are no staging
    buffer (there are none); A's full share dealt in quarters to its four windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨_ + 6, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨_ + 6, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each input's current staging buffer holds its block at every point, fetched there or not. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks; the point's remainder by 4 says which branch
    runs; that branch's run applies, on the buffer of the window it reads, E's and the output's; the other
    three windows' buffers pass through untouched; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms_0 t) fullShare ((dats m 0 c).after 0 t) from by
      unfold Dat.leavesExact; rw [live_0 t], after_0,
    show (dats m 0 c).leavesExact 1 t = owns (c : Thread nD τ) (ms_1 t) fullShare ((dats m 0 c).after 1 t) from by
      unfold Dat.leavesExact; rw [live_1 t], after_1,
    show (dats m 0 c).leavesExact 2 t = owns (c : Thread nD τ) (ms_2 t) fullShare ((dats m 0 c).after 2 t) from by
      unfold Dat.leavesExact; rw [live_2 t], after_2,
    show (dats m 0 c).leavesExact 3 t = owns (c : Thread nD τ) (ms_3 t) fullShare ((dats m 0 c).after 3 t) from by
      unfold Dat.leavesExact; rw [live_3 t], after_3,
    show (dats m 0 c).leavesExact 4 t = owns (c : Thread nD τ) (ms_4 t) fullShare ((dats m 0 c).after 4 t) from by
      unfold Dat.leavesExact; rw [live_4 t], after_4,
    show (dats m 0 c).leavesExact 5 t = owns (c : Thread nD τ) (ms_5 t) fullShare ((dats m 0 c).after 5 t) from by
      unfold Dat.leavesExact; rw [live_5 t], after_5]
  have hN : t.val < 64 := lt_of_lt_of_eq t.isLt (show cfg0.N = 64 from N_0)
  rcases (show t.val % 4 = 0 ∨ t.val % 4 = 1 ∨ t.val % 4 = 2 ∨ t.val % 4 = 3 by omega) with hr | hr | hr | hr
  ·
    rw [outAt_0 m c t hr]
    iintro ⟨HΦ, Ho, ⟨%d0, H0⟩, ⟨%d1, H1⟩, ⟨%d2, H2⟩, ⟨%d3, H3⟩, ⟨%d4, H4⟩, ⟨%d5, H5⟩⟩
    iapply ((kernelRun_0 c (grid0.coords t) _ _ _ _ _ _ _ _ _ _ _ _ ((hcond1 t).mpr hr) (fun h => by have := (hcond2 t).mp h; omega) (fun h => by have := (hcond3 t).mp h; omega) (fun h => by have := (hcond4 t).mp h; omega) (iblk m c 0 t) (iblk m c 4 t)).2 Set.univ _)
    isplitl [H0]; · iexact H0
    isplitl [H4]; · iexact H4
    isplitl [H5]; · iexists _; iexact H5
    iintro ⟨H0, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_0 c _ _ _ _ _ _ _ _ _ _ _ _ _ _ _ _ _ _ _)).trans (left_0 c _ _ _ _ _ _ _ _ _ _ _ _ _ _ _ _ _ _ _)
  ·
    rw [outAt_1 m c t hr]
    iintro ⟨HΦ, Ho, ⟨%d0, H0⟩, ⟨%d1, H1⟩, ⟨%d2, H2⟩, ⟨%d3, H3⟩, ⟨%d4, H4⟩, ⟨%d5, H5⟩⟩
    iapply ((kernelRun_1 c (grid0.coords t) _ _ _ _ _ _ _ _ _ _ _ _ (fun h => by have := (hcond1 t).mp h; omega) ((hcond2 t).mpr hr) (fun h => by have := (hcond3 t).mp h; omega) (fun h => by have := (hcond4 t).mp h; omega) (iblk m c 1 t) (iblk m c 4 t)).2 Set.univ _)
    isplitl [H1]; · iexact H1
    isplitl [H4]; · iexact H4
    isplitl [H5]; · iexists _; iexact H5
    iintro ⟨H1, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_1 c _ _ _ _ _ _ _ _ _ _ _ _ _ _ _ _ _ _ _)).trans (left_1 c _ _ _ _ _ _ _ _ _ _ _ _ _ _ _ _ _ _ _)
  ·
    rw [outAt_2 m c t hr]
    iintro ⟨HΦ, Ho, ⟨%d0, H0⟩, ⟨%d1, H1⟩, ⟨%d2, H2⟩, ⟨%d3, H3⟩, ⟨%d4, H4⟩, ⟨%d5, H5⟩⟩
    iapply ((kernelRun_2 c (grid0.coords t) _ _ _ _ _ _ _ _ _ _ _ _ (fun h => by have := (hcond1 t).mp h; omega) (fun h => by have := (hcond2 t).mp h; omega) ((hcond3 t).mpr hr) (fun h => by have := (hcond4 t).mp h; omega) (iblk m c 2 t) (iblk m c 4 t)).2 Set.univ _)
    isplitl [H2]; · iexact H2
    isplitl [H4]; · iexact H4
    isplitl [H5]; · iexists _; iexact H5
    iintro ⟨H2, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_2 c _ _ _ _ _ _ _ _ _ _ _ _ _ _ _ _ _ _ _)).trans (left_2 c _ _ _ _ _ _ _ _ _ _ _ _ _ _ _ _ _ _ _)
  ·
    rw [outAt_3 m c t hr]
    iintro ⟨HΦ, Ho, ⟨%d0, H0⟩, ⟨%d1, H1⟩, ⟨%d2, H2⟩, ⟨%d3, H3⟩, ⟨%d4, H4⟩, ⟨%d5, H5⟩⟩
    iapply ((kernelRun_3 c (grid0.coords t) _ _ _ _ _ _ _ _ _ _ _ _ (fun h => by have := (hcond1 t).mp h; omega) (fun h => by have := (hcond2 t).mp h; omega) (fun h => by have := (hcond3 t).mp h; omega) ((hcond4 t).mpr hr) (iblk m c 3 t) (iblk m c 4 t)).2 Set.univ _)
    isplitl [H3]; · iexact H3
    isplitl [H4]; · iexact H4
    isplitl [H5]; · iexists _; iexact H5
    iintro ⟨H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_of_cover _ _ _ _ _ (cover_3 c _ _ _ _ _ _ _ _ _ _ _ _ _ _ _ _ _ _ _)).trans (left_3 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The launch element of the pipeline's staging cells. -/
abbrev u₀ : UR sig nD τ := Rounds.initOf (Pipeline.cells cfgs cellOf_inj) (Pipeline.launchToks cfgs cellOf_inj)

/-- The share each window holds of its array: a quarter of A's for each of the four windows on A, all of E's
    and all of the result's. -/
theorem share_0 (c : Dev nD) : (dats m 0 c).share 0 = fullShare.left.left := rfl
theorem share_1 (c : Dev nD) : (dats m 0 c).share 1 = fullShare.left.right := rfl
theorem share_2 (c : Dev nD) : (dats m 0 c).share 2 = fullShare.right.left := rfl
theorem share_3 (c : Dev nD) : (dats m 0 c).share 3 = fullShare.right.right := rfl
theorem share_4 (c : Dev nD) : (dats m 0 c).share 4 = fullShare := rfl
theorem share_5 (c : Dev nD) : (dats m 0 c).share 5 = fullShare := rfl

/-- The three buffers behind the six windows, each held whole at its entry contents, are the proof data's
    arrays at entry: A's full share halved and each half halved again, a quarter to each of its four windows;
    E and the result whole to their one window each. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  have e : (dats m 0 c).arrays (fun w => (dats m 0 c).arrAt w 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by
      rw [show (cfg0.win w).arr.view.set = Finset.univ from (arr_whole0 w).set_eq_univ]; rfl
  rw [e]
  have eB : (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_v0) ↦{fullShare} V m c main_v0)) :=
    bigSep_eq_bigSepL_of_eq [main_arg0, main_arg1, main_v0] (by decide) (by decide) _
  rw [eB, bigSep_W0, share_0, share_1, share_2, share_3, share_4, share_5]
  iintro ⟨HA, HE, HO⟩
  ihave HA' := (pointsTo_share (PosShare.mem_left_op_right fullShare)).1 $$ HA
  icases HA' with ⟨HL, HR⟩
  ihave HL' := (pointsTo_share (PosShare.mem_left_op_right fullShare.left)).1 $$ HL
  icases HL' with ⟨H0, H1⟩
  ihave HR' := (pointsTo_share (PosShare.mem_left_op_right fullShare.right)).1 $$ HR
  icases HR' with ⟨H2, H3⟩
  isplitl [H0]; · iexact H0
  isplitl [H1]; · iexact H1
  isplitl [H2]; · iexact H2
  isplitl [H3]; · iexact H3
  isplitl [HE]; · iexact HE
  iexact HO

/-- Between points the body keeps nothing: what the launch hands the region beside the windows is the
    invariant before the first point, -/
theorem phi_in (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, H⟩; iexact H

/-- and the invariant after the last point gives it back. -/
theorem phi_out (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = Pipeline.scopedRest (Ix := Unit) (Name := ℕ) (U := UR sig nD τ) (Lvl := ℕ) (Val := Elt F) spec0 c from rfl]
  iintro H; isplitr; · iempintro
  iexact H

/-- What the run ends in: every window's array at what the write-backs made of it. -/
def RunPost (r : PUnit × MemSt nD τ sig (Elt F)) : Prop :=
  ∀ (c : Dev nD) (w : Fin cfg0.W), r.2.mem ((cfg0.spec w).arr.view.loc (c.tc : Thread nD τ)) = (dats m 0 c).arrAt w cfg0.N

/-- From any memory with zero counters every weakly fair execution of the program terminates without a fault,
    every window's array ending at what the library computes from the proof data. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀)
    (hu₀ := (show (ownU u₀ : sProp 𝕄) ⊢ BI.own (emb₁ (Rounds.initOf (Pipeline.cells cfgs cellOf_inj) (Pipeline.launchToks cfgs cellOf_inj))) from .rfl))
    (V := V m) (hmain := hmain m Variants.none)
    (hsplit := arrays_of_bufs m)
    (X := fun _ => iprop(emp)) (Y := fun _ => iprop(emp)) (Z := fun _ => iprop(emp))
    (hX := fun c => by rw [unscopedRest0_eq]; iintro -; isplitr <;> iempintro)
    (hin := phi_in m) (hout := phi_out m)
    (QY := fun _ _ => True)
    (hY := fun c s' => by
      iintro ⟨-, -, HSI⟩; imodintro
      isplitr; · ipureintro; trivial
      iexact HSI)
    (hQ := fun _ h c w => (h c).1 w)

/-- THE FRAME: the program runs to its end without a fault and A and E end as they began (each is an input
    window's array, which no write-back touches). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans ((A_eq m c 0).trans (V_main_arg0 m c))),
     (h c 4).trans (((dats m 0 c).arrAt_in 4 rfl _).trans ((A_eq m c 4).trans (V_main_arg1 m c)))⟩) (run_main m ρ)

end Cert.KernelIdeal.Stream

end
-- ==== Proof.KIStreamValue.lean ====
/-
  The value of the streaming product at the exact reals: after the run the result array holds, at row r and
  column n, the sum over k of A[r, k] · E[k, n].

  At a grid point t the output's staging buffer holds the product of E with the block of window t mod 4; that
  window then sits on row block t (its block index there is t, decided over the grid), so the block's row y is
  row 128 t + y of A, and the stored entry at (y, n) is the sum over k of A[128 t + y, k] · E[k, n]: block t of
  the whole product. Narrowing E to bf16 changes nothing at the exact reals. The output window's blocks are the
  64 row blocks of the result, each written back once, so they cover the array, and it ends holding the whole
  product whatever it held at entry.
-/
import proofs.«159240_g24532853195392_cont_8to1_888_26_alg».proof.Proof.KIStreamFrame
import Idealize.ShloMosaic.Lib.Pipeline.Value
import Idealize.ShloMosaic.Lib.ValueIdx
import Idealize.ShloMosaic.PureOps.Ideal.Laws

-- membership in a rectangle of 128 x 8192 and 8192 x 64 entries: the structural look recurses once per coordinate
set_option maxRecDepth 16384

noncomputable section

namespace Cert.KernelIdeal.StreamValue

open Cert.KernelIdeal Cert.KernelIdeal.Gen Cert.KernelIdeal.Stream
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-! ## The whole product -/

/-- Row `i 0` of A at column `k`, and row `k` of E at column `i 1`: the two factors of the k-th term of entry `i`. -/
abbrev aix (i : S8192x64.Idx) (k : Fin 8192) : S8192x8192.Idx := fun a => match a with
  | ⟨0, _⟩ => ⟨(i 0).val, (i 0).isLt⟩
  | ⟨1, _⟩ => ⟨k.val, k.isLt⟩
abbrev eix (i : S8192x64.Idx) (k : Fin 8192) : S8192x64.Idx := fun a => match a with
  | ⟨0, _⟩ => ⟨k.val, k.isLt⟩
  | ⟨1, _⟩ => ⟨(i 1).val, (i 1).isLt⟩

/-- A · E, entry by entry, on the extended reals. -/
def G (A : (⟨S8192x8192, .f32⟩ : BufTy).Contents (Elt Ideal)) (E : (⟨S8192x64, .f32⟩ : BufTy).Contents (Elt Ideal)) :
    (⟨S8192x64, .f32⟩ : BufTy).Contents (Elt Ideal) :=
  fun i => ∑ k : Fin 8192, A (aix i k) * E (eix i k)

/-! ## The stored block at an entry -/

theorem lhs_blk_0 (j : S128x64.Idx) (q : dot_S128x8192_S8192x64_S128x64_1_0_0_1_n_n.contr.Idx) :
    (dot_S128x8192_S8192x64_S128x64_1_0_0_1_n_n.lhsIdx j q 0).val = (j 0).val := by
  unfold DotDims.lhsIdx
  rw [dif_neg (show ¬(0 : Fin S128x8192.rank) ∈ dot_S128x8192_S8192x64_S128x64_1_0_0_1_n_n.lhsBatch by decide), dif_pos (show (0 : Fin S128x8192.rank) ∈ dot_S128x8192_S8192x64_S128x64_1_0_0_1_n_n.lhsNonContracting by decide)]
  rfl
theorem lhs_blk_1 (j : S128x64.Idx) (q : dot_S128x8192_S8192x64_S128x64_1_0_0_1_n_n.contr.Idx) :
    (dot_S128x8192_S8192x64_S128x64_1_0_0_1_n_n.lhsIdx j q 1).val = (q ⟨0, by decide⟩).val :=
  dot_S128x8192_S8192x64_S128x64_1_0_0_1_n_n.lhsIdx_val_of_single rfl j q
theorem rhs_blk_0 (j : S128x64.Idx) (q : dot_S128x8192_S8192x64_S128x64_1_0_0_1_n_n.contr.Idx) :
    (dot_S128x8192_S8192x64_S128x64_1_0_0_1_n_n.rhsIdx j q 0).val = (q ⟨0, by decide⟩).val :=
  dot_S128x8192_S8192x64_S128x64_1_0_0_1_n_n.rhsIdx_val_of_single rfl j q
theorem rhs_blk_1 (j : S128x64.Idx) (q : dot_S128x8192_S8192x64_S128x64_1_0_0_1_n_n.contr.Idx) :
    (dot_S128x8192_S8192x64_S128x64_1_0_0_1_n_n.rhsIdx j q 1).val = (j 1).val := by
  unfold DotDims.rhsIdx
  rw [dif_neg (show ¬(1 : Fin S8192x64.rank) ∈ dot_S128x8192_S8192x64_S128x64_1_0_0_1_n_n.rhsBatch by decide), dif_pos (show (1 : Fin S8192x64.rank) ∈ dot_S128x8192_S8192x64_S128x64_1_0_0_1_n_n.rhsNonContracting by decide)]
  rfl

/-- Row `j 0` of a block at column `k`, and row `k` of E at column `j 1`. -/
abbrev bix (j : S128x64.Idx) (k : Fin 8192) : S128x8192.Idx := fun a => match a with
  | ⟨0, _⟩ => ⟨(j 0).val, (j 0).isLt⟩
  | ⟨1, _⟩ => ⟨k.val, k.isLt⟩
abbrev cix (j : S128x64.Idx) (k : Fin 8192) : S8192x64.Idx := fun a => match a with
  | ⟨0, _⟩ => ⟨k.val, k.isLt⟩
  | ⟨1, _⟩ => ⟨(j 1).val, (j 1).isLt⟩

/-- The product of a block with E, at an entry, is the sum over the 8192 columns of the block's row times E's
    column: the narrowing of E is the identity on the extended reals and the accumulator starts at zero. -/
theorem prodBlock_apply (xe : Vec Ideal S8192x64 .f32) (xa : Vec Ideal S128x8192 .f32) (j : S128x64.Idx) :
    prodBlock (F := Ideal) xe xa j = ∑ k : Fin 8192, xa (bix j k) * xe (cix j k) := by
  unfold prodBlock k0_pay4 k0_pay3
  simp only [matmul]
  rw [Ideal.matmul_constant_zero_apply, ← Equiv.sum_comp (ValueIdx.contrEquiv1 dot_S128x8192_S8192x64_S128x64_1_0_0_1_n_n 8192 rfl rfl).symm]
  refine Finset.sum_congr rfl fun k _ => ?_
  have hk := ValueIdx.contrEquiv1_symm_val dot_S128x8192_S8192x64_S128x64_1_0_0_1_n_n 8192 rfl rfl k
  have el : dot_S128x8192_S8192x64_S128x64_1_0_0_1_n_n.lhsIdx j ((ValueIdx.contrEquiv1 dot_S128x8192_S8192x64_S128x64_1_0_0_1_n_n 8192 rfl rfl).symm k) = bix j k := funext fun a => Fin.ext (by
    match a with
    | ⟨0, _⟩ => exact lhs_blk_0 _ _
    | ⟨1, _⟩ => exact (lhs_blk_1 _ _).trans hk)
  have er : dot_S128x8192_S8192x64_S128x64_1_0_0_1_n_n.rhsIdx j ((ValueIdx.contrEquiv1 dot_S128x8192_S8192x64_S128x64_1_0_0_1_n_n 8192 rfl rfl).symm k) = cix j k := funext fun a => Fin.ext (by
    match a with
    | ⟨0, _⟩ => exact (rhs_blk_0 _ _).trans hk
    | ⟨1, _⟩ => exact rhs_blk_1 _ _)
  rw [el, er]
  all_goals rfl

/-! ## Where the windows sit -/

/-- The printed index maps, decided over the grid: the output's block index at point t is t; E's is 0; the
    window numbered t mod 4 sits on row block t; no window is offset along the columns. -/
theorem idx_facts : ∀ t : Fin cfg0.N,
    win0_5.index t (0 : Fin 2) = t.val ∧ win0_5.index t (1 : Fin 2) = 0
    ∧ win0_4.index t (0 : Fin 2) = 0 ∧ win0_4.index t (1 : Fin 2) = 0
    ∧ (t.val % 4 = 0 → win0_0.index t (0 : Fin 2) = t.val) ∧ win0_0.index t (1 : Fin 2) = 0
    ∧ (t.val % 4 = 1 → win0_1.index t (0 : Fin 2) = t.val) ∧ win0_1.index t (1 : Fin 2) = 0
    ∧ (t.val % 4 = 2 → win0_2.index t (0 : Fin 2) = t.val) ∧ win0_2.index t (1 : Fin 2) = 0
    ∧ (t.val % 4 = 3 → win0_3.index t (0 : Fin 2) = t.val) ∧ win0_3.index t (1 : Fin 2) = 0 :=
  (by decide +kernel : ∀ t : Fin grid0.N, _)

/-- Every row block of the result is some point's. -/
theorem idx_onto : ∀ q0 : Fin 64, ∃ t : Fin cfg0.N, win0_5.index t = ![q0.val, 0] :=
  (by decide +kernel : ∀ q0 : Fin 64, ∃ t : Fin grid0.N, win0_5.index t = ![q0.val, 0])

/-! ## What a point writes back -/

/-- A block whose row `j 0` is row `i 0` of A, multiplied by E, has at `j` the whole product's entry `i` when the
    columns agree: term by term the two sums are the same. -/
theorem prod_rows (A : (⟨S8192x8192, .f32⟩ : BufTy).Contents (Elt Ideal)) (E : (⟨S8192x64, .f32⟩ : BufTy).Contents (Elt Ideal))
    (xa : Vec Ideal S128x8192 .f32) (xe : Vec Ideal S8192x64 .f32) (j : S128x64.Idx) (i : S8192x64.Idx)
    (ha : ∀ k : Fin 8192, xa (bix j k) = A (aix i k)) (he : ∀ k : Fin 8192, xe (cix j k) = E (eix i k)) :
    prodBlock (F := Ideal) xe xa j = G A E i := by
  rw [prodBlock_apply]
  unfold G
  exact Finset.sum_congr rfl fun k _ => by rw [ha k, he k]

/-- Window 0's block at a point t with t mod 4 = 0: its row y is row 128 t + y of A, the same row of the array
    that the output's block has there. -/
theorem rows_0 (c : Dev nD) (t : Fin cfg0.N) (hr : t.val % 4 = 0) (j : S128x64.Idx) (k : Fin 8192) :
    iblk m c 0 t (bix j k) = V m c main_arg0 (aix (((cfg0.win 5).blk t).view.emb j) k) := by
  obtain ⟨e50, e51, e40, e41, e00, e01, e10, e11, e20, e21, e30, e31⟩ := idx_facts t
  have ew := e00 hr
  show V m c main_arg0 (((cfg0.win 0).blk t).view.emb (bix j k)) = V m c main_arg0 (aix (((cfg0.win 5).blk t).view.emb j) k)
  refine congrArg (V m c main_arg0) (funext fun a => Fin.ext ?_)
  match a with
  | ⟨0, _⟩ => show win0_0.index t (0 : Fin 2) * 128 + 1 * (j 0).val = win0_5.index t (0 : Fin 2) * 128 + 1 * (j 0).val; omega
  | ⟨1, _⟩ => show win0_0.index t (1 : Fin 2) * 8192 + 1 * k.val = k.val; omega

/-- Window 1's block at a point t with t mod 4 = 1: its row y is row 128 t + y of A, the same row of the array
    that the output's block has there. -/
theorem rows_1 (c : Dev nD) (t : Fin cfg0.N) (hr : t.val % 4 = 1) (j : S128x64.Idx) (k : Fin 8192) :
    iblk m c 1 t (bix j k) = V m c main_arg0 (aix (((cfg0.win 5).blk t).view.emb j) k) := by
  obtain ⟨e50, e51, e40, e41, e00, e01, e10, e11, e20, e21, e30, e31⟩ := idx_facts t
  have ew := e10 hr
  show V m c main_arg0 (((cfg0.win 1).blk t).view.emb (bix j k)) = V m c main_arg0 (aix (((cfg0.win 5).blk t).view.emb j) k)
  refine congrArg (V m c main_arg0) (funext fun a => Fin.ext ?_)
  match a with
  | ⟨0, _⟩ => show win0_1.index t (0 : Fin 2) * 128 + 1 * (j 0).val = win0_5.index t (0 : Fin 2) * 128 + 1 * (j 0).val; omega
  | ⟨1, _⟩ => show win0_1.index t (1 : Fin 2) * 8192 + 1 * k.val = k.val; omega

/-- Window 2's block at a point t with t mod 4 = 2: its row y is row 128 t + y of A, the same row of the array
    that the output's block has there. -/
theorem rows_2 (c : Dev nD) (t : Fin cfg0.N) (hr : t.val % 4 = 2) (j : S128x64.Idx) (k : Fin 8192) :
    iblk m c 2 t (bix j k) = V m c main_arg0 (aix (((cfg0.win 5).blk t).view.emb j) k) := by
  obtain ⟨e50, e51, e40, e41, e00, e01, e10, e11, e20, e21, e30, e31⟩ := idx_facts t
  have ew := e20 hr
  show V m c main_arg0 (((cfg0.win 2).blk t).view.emb (bix j k)) = V m c main_arg0 (aix (((cfg0.win 5).blk t).view.emb j) k)
  refine congrArg (V m c main_arg0) (funext fun a => Fin.ext ?_)
  match a with
  | ⟨0, _⟩ => show win0_2.index t (0 : Fin 2) * 128 + 1 * (j 0).val = win0_5.index t (0 : Fin 2) * 128 + 1 * (j 0).val; omega
  | ⟨1, _⟩ => show win0_2.index t (1 : Fin 2) * 8192 + 1 * k.val = k.val; omega

/-- Window 3's block at a point t with t mod 4 = 3: its row y is row 128 t + y of A, the same row of the array
    that the output's block has there. -/
theorem rows_3 (c : Dev nD) (t : Fin cfg0.N) (hr : t.val % 4 = 3) (j : S128x64.Idx) (k : Fin 8192) :
    iblk m c 3 t (bix j k) = V m c main_arg0 (aix (((cfg0.win 5).blk t).view.emb j) k) := by
  obtain ⟨e50, e51, e40, e41, e00, e01, e10, e11, e20, e21, e30, e31⟩ := idx_facts t
  have ew := e30 hr
  show V m c main_arg0 (((cfg0.win 3).blk t).view.emb (bix j k)) = V m c main_arg0 (aix (((cfg0.win 5).blk t).view.emb j) k)
  refine congrArg (V m c main_arg0) (funext fun a => Fin.ext ?_)
  match a with
  | ⟨0, _⟩ => show win0_3.index t (0 : Fin 2) * 128 + 1 * (j 0).val = win0_5.index t (0 : Fin 2) * 128 + 1 * (j 0).val; omega
  | ⟨1, _⟩ => show win0_3.index t (1 : Fin 2) * 8192 + 1 * k.val = k.val; omega

/-- E's window holds all of E at every point: its entry (k, n) is E[k, n], n the output block's column. -/
theorem cols_E (c : Dev nD) (t : Fin cfg0.N) (j : S128x64.Idx) (k : Fin 8192) :
    iblk m c 4 t (cix j k) = V m c main_arg1 (eix (((cfg0.win 5).blk t).view.emb j) k) := by
  obtain ⟨e50, e51, e40, e41, e00, e01, e10, e11, e20, e21, e30, e31⟩ := idx_facts t
  show V m c main_arg1 (((cfg0.win 4).blk t).view.emb (cix j k)) = V m c main_arg1 (eix (((cfg0.win 5).blk t).view.emb j) k)
  refine congrArg (V m c main_arg1) (funext fun a => Fin.ext ?_)
  match a with
  | ⟨0, _⟩ => show win0_4.index t (0 : Fin 2) * 8192 + 1 * k.val = k.val; omega
  | ⟨1, _⟩ => show win0_4.index t (1 : Fin 2) * 64 + 1 * (j 1).val = win0_5.index t (1 : Fin 2) * 64 + 1 * (j 1).val; omega

/-- WHAT POINT t WRITES BACK is block t of the whole product of the arrays as the region finds them. -/
theorem flushed_eq (c : Dev nD) (t : Fin cfg0.N) :
    (dats (F := Ideal) m 0 c).flushed 5 t = ((cfg0.win 5).blk t).view.read (Elt Ideal) (G (V m c main_arg0) (V m c main_arg1)) := by
  show (cfg0.win 5).cut (grid0.coords t) ((dats m 0 c).after 5 t) = _
  rw [after_5]
  funext j
  show outAt m c t j = G (V m c main_arg0) (V m c main_arg1) (((cfg0.win 5).blk t).view.emb j)
  have hN : t.val < 64 := lt_of_lt_of_eq t.isLt (show cfg0.N = 64 from N_0)
  rcases (show t.val % 4 = 0 ∨ t.val % 4 = 1 ∨ t.val % 4 = 2 ∨ t.val % 4 = 3 by omega) with hr | hr | hr | hr
  · rw [outAt_0 m c t hr]
    exact prod_rows (V m c main_arg0) (V m c main_arg1) (iblk m c 0 t) (iblk m c 4 t) j _ (fun k => rows_0 m c t hr j k) (fun k => cols_E m c t j k)
  · rw [outAt_1 m c t hr]
    exact prod_rows (V m c main_arg0) (V m c main_arg1) (iblk m c 1 t) (iblk m c 4 t) j _ (fun k => rows_1 m c t hr j k) (fun k => cols_E m c t j k)
  · rw [outAt_2 m c t hr]
    exact prod_rows (V m c main_arg0) (V m c main_arg1) (iblk m c 2 t) (iblk m c 4 t) j _ (fun k => rows_2 m c t hr j k) (fun k => cols_E m c t j k)
  · rw [outAt_3 m c t hr]
    exact prod_rows (V m c main_arg0) (V m c main_arg1) (iblk m c 3 t) (iblk m c 4 t) j _ (fun k => rows_3 m c t hr j k) (fun k => cols_E m c t j k)

/-! ## The output's blocks cover the result -/

/-- An entry of the result is in point t's block iff each coordinate is in the block's range on its axis. -/
theorem mem_blk (t : Fin cfg0.N) (i : S8192x64.Idx) :
    i ∈ ((cfg0.win 5).blk t).view.set ↔ ∀ a : Fin 2, win0_5.index t a * S128x64.size a ≤ (i a).val ∧ (i a).val < win0_5.index t a * S128x64.size a + S128x64.size a := by
  show i ∈ ((View.whole main_v0).slice (win0_5.rect t)).set ↔ _
  rw [View.set_slice_whole, Rect.mem_set_unit]
  exact Iff.rfl

/-- Row r of the result lies in the block of point r / 128, which is written back. -/
theorem covered (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  obtain ⟨t, ht⟩ := idx_onto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 64 ≤ (i 1).val ∧ (i 1).val < win0_5.index t (1 : Fin 2) * 64 + 64; omega

/-- THE RESULT ARRAY after the run is the whole product of A and E as launched. -/
theorem final (c : Dev nD) :
    (dats (F := Ideal) m 0 c).arrAt 5 cfg0.N = G (m ((c.tc : Thread nD τ).loc main_arg0)) (m ((c.tc : Thread nD τ).loc main_arg1)) :=
  (dats (F := Ideal) m 0 c).arrAt_eq_of_cover 5 (G (V m c main_arg0) (V m c main_arg1)) (fun t _ => flushed_eq m c t) covered

/-! ## The run, read -/

/-- Every weakly fair execution of the idealized kernel terminates with the result array at A · E and the two
    arguments unchanged. -/
theorem run : θ_run defs (onTc (τ := τ) (main (F := Ideal))) ⟨m, fun _ => 0, ρ⟩ fun r => ∀ c : Dev nD,
      r.2.mem ((c.tc : Thread nD τ).loc main_v0) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c 5).trans (final m c),
     (h c 0).trans (((dats (F := Ideal) m 0 c).arrAt_in 0 rfl _).trans ((A_eq m c 0).trans (V_main_arg0 m c))),
     (h c 4).trans (((dats (F := Ideal) m 0 c).arrAt_in 4 rfl _).trans ((A_eq m c 4).trans (V_main_arg1 m c)))⟩) (run_main m ρ)

end Cert.KernelIdeal.StreamValue

end
-- ==== Proof.lean ====
/-
  phi = A · E as a streaming Pallas kernel against jnp's A @ E, over the extended reals.

  The kernel walks the 64 row blocks of A (8192 x 8192) in order and, at block i, multiplies that 128 x 8192
  block by E (8192 x 64, narrowed to bf16 for the matrix unit) into the result's block i. A reaches it through
  four input windows whose block indices are staggered, window j at j + 4 · min((i + 3 - j) / 4, 15); at a point
  i = 4q + j the body reads window j, which then sits on block i itself. At the exact reals the narrowing is the
  identity and the matrix unit's product from a zero accumulator is the plain sum, so each result entry is
  the sum over k of A[r, k] · E[k, n]: the same sum jnp's dot_general is. No law beyond reading both sides as
  that one sum is used, so finiteness of the inputs is never needed.

  The three frames: the two kernel programs (word level and idealized: one text, two namespaces) run to the end
  under the pipeline's launch for windows that share an array, A's full share dealt in quarters to its four
  windows; the reference is one host operation. The ideal pass rewrote nothing, so `preserves` is `True`.
-/
import proofs.«159240_g24532853195392_cont_8to1_888_26_alg».proof.Defs
import proofs.«159240_g24532853195392_cont_8to1_888_26_alg».proof.Proof.Gen.Kernel
import proofs.«159240_g24532853195392_cont_8to1_888_26_alg».proof.Proof.Gen.KernelIdeal
import proofs.«159240_g24532853195392_cont_8to1_888_26_alg».proof.Proof.Gen.ReferenceIdeal
import proofs.«159240_g24532853195392_cont_8to1_888_26_alg».proof.Proof.Gen.Pre_finite_inputs
import proofs.«159240_g24532853195392_cont_8to1_888_26_alg».proof.Proof.Gen.ReferenceIdeal.Run
import proofs.«159240_g24532853195392_cont_8to1_888_26_alg».proof.Proof.Gen.ReferenceIdeal.Read
import proofs.«159240_g24532853195392_cont_8to1_888_26_alg».proof.Proof.KStreamFrame
import proofs.«159240_g24532853195392_cont_8to1_888_26_alg».proof.Proof.KIStreamValue
import Idealize.ShloMosaic.Adequacy
import Idealize.ShloMosaic.Init

noncomputable section

namespace Cert.Proof

open Idealize.ShloMosaic Idealize.ShloMosaic.TcCoe Idealize.SL.Sem

/-- jnp's product read entry by entry is the same sum over k of A[r, k] · E[k, n] as the kernel's result. -/
theorem reference_is_product (A : (⟨Cert.ReferenceIdeal.S8192x8192, .f32⟩ : BufTy).Contents (Elt Ideal))
    (E : (⟨Cert.ReferenceIdeal.S8192x64, .f32⟩ : BufTy).Contents (Elt Ideal)) :
    (Host.dotGeneral (F := Ideal) (φ₁ := .f32) (φ₂ := .f32) Cert.ReferenceIdeal.dot_S8192x8192_S8192x64_S8192x64_1_0_0_1_n_n none A E
        : (⟨Cert.ReferenceIdeal.S8192x64, .f32⟩ : BufTy).Contents (Elt Ideal))
      = Cert.KernelIdeal.StreamValue.G A E := by
  funext i
  rw [Cert.ReferenceIdeal.Read.val_main_v0_eq, Cert.ReferenceIdeal.Read.val_main_v0_apply]
  rfl

theorem frame_k : Cert.frame_Kernel := fun m ρ _ => Cert.Kernel.Stream.frame m ρ
theorem frame_ki : Cert.frame_KernelIdeal := fun m ρ _ => Cert.KernelIdeal.Stream.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at A · E of arguments that agree. -/
theorem algebraic : Cert.algebraic_KernelIdeal_ReferenceIdeal := by
  intro m ρ m' ρ' _ hagree
  refine ⟨fun c => Cert.KernelIdeal.StreamValue.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.StreamValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact reference_is_product _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
